-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v2) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x4096x1024 : Shape := ⟨3, ![32, 4096, 1024]⟩
abbrev S32x1024 : Shape := ⟨2, ![32, 1024]⟩
abbrev S_ : Shape := ⟨0, ![]⟩

class Facts : Prop where
  bcast_S_S32x4096x1024 : S_.BroadcastsInDim S32x4096x1024 (![] : Fin 0 → Fin S32x4096x1024.rank)
  reducesTo_S32x4096x1024_S_d0_1_2 : S32x4096x1024.ReducesTo [0, 1, 2] S_
  h_S_ : 0 < S_.numel
  bcast_S_S32x1024 : S_.BroadcastsInDim S32x1024 (![] : Fin 0 → Fin S32x1024.rank)
  reducesTo_S32x1024_S_d0_1 : S32x1024.ReducesTo [0, 1] S_

variable [Facts]

def fn {F : FTy → Type} [FloatOps F] (main_arg0 : FVec F S32x4096x1024 .f32) (main_arg1 : IVec S32x1024 32) : IVec S_ 1 :=
  let main_v0 : FVec F S32x4096x1024 .f32 := Host.absf main_arg0
  let main_cst : FVec F S_ .f32 := constant S_ .f32 0x7F800000#32
  let main_v1 : FVec F S32x4096x1024 .f32 := broadcastInDim S32x4096x1024 ![] bcast_S_S32x4096x1024 main_cst
  let main_v2 : IVec S32x4096x1024 1 := cmpf .olt main_v0 main_v1
  let main_c : IVec S_ 1 := constantI S_ 1 1#1
  let main_v3 : IVec S_ 1 := (fun x v => Host.reduce IntOp.andi x v reducesTo_S32x4096x1024_S_d0_1_2 h_S_) main_v2 main_c
  let main_c_0 : IVec S_ 32 := constantI S_ 32 0#32
  let main_v4 : IVec S32x1024 32 := broadcastInDim S32x1024 ![] bcast_S_S32x1024 main_c_0
  let main_v5 : IVec S32x1024 1 := cmpi .sge main_arg1 main_v4
  let main_c_1 : IVec S_ 32 := constantI S_ 32 4096#32
  let main_v6 : IVec S32x1024 32 := broadcastInDim S32x1024 ![] bcast_S_S32x1024 main_c_1
  let main_v7 : IVec S32x1024 1 := cmpi .slt main_arg1 main_v6
  let main_v8 : IVec S32x1024 1 := andi main_v5 main_v7
  let main_c_2 : IVec S_ 1 := constantI S_ 1 1#1
  let main_v9 : IVec S_ 1 := (fun x v => Host.reduce IntOp.andi x v reducesTo_S32x1024_S_d0_1 h_S_) main_v8 main_c_2
  let main_v10 : IVec S_ 1 := andi main_v3 main_v9
  main_v10
-- ==== Kernel.lean ====
abbrev S32x4096x1024 : Shape := ⟨3, ![32, 4096, 1024]⟩
abbrev S32x1024 : Shape := ⟨2, ![32, 1024]⟩
abbrev S_ : Shape := ⟨0, ![]⟩
abbrev S32x1x1024 : Shape := ⟨3, ![32, 1, 1024]⟩
abbrev S1x4096x1024 : Shape := ⟨3, ![1, 4096, 1024]⟩
abbrev S1x1x1024 : Shape := ⟨3, ![1, 1, 1024]⟩
abbrev S1x512x1024 : Shape := ⟨3, ![1, 512, 1024]⟩
abbrev S1x1024 : Shape := ⟨2, ![1, 1024]⟩

abbrev nBuf : Space → Nat
  | .hbm => 13
  | .vmem => 6
  | .smem => 0
  | _ => 0

abbrev bufTy : (tb : Table) → Fin (tcTables nBuf tb) → BufTy
  | .hbm, ⟨0, _⟩ => ⟨S32x4096x1024, .f32⟩
  | .hbm, ⟨1, _⟩ => ⟨S32x1024, .i32⟩
  | .hbm, ⟨2, _⟩ => ⟨S_, .i32⟩
  | .hbm, ⟨3, _⟩ => ⟨S_, .i32⟩
  | .hbm, ⟨4, _⟩ => ⟨S_, .i32⟩
  | .hbm, ⟨5, _⟩ => ⟨S32x1024, .i32⟩
  | .hbm, ⟨6, _⟩ => ⟨S32x1024, .i32⟩
  | .hbm, ⟨7, _⟩ => ⟨S_, .i32⟩
  | .hbm, ⟨8, _⟩ => ⟨S32x1024, .i32⟩
  | .hbm, ⟨9, _⟩ => ⟨S32x1024, .i32⟩
  | .hbm, ⟨10, _⟩ => ⟨S32x1x1024, .i32⟩
  | .hbm, ⟨11, _⟩ => ⟨S32x1x1024, .f32⟩
  | .hbm, ⟨12, _⟩ => ⟨S32x1024, .f32⟩
  | .local _ .vmem, ⟨0, _⟩ => ⟨S1x4096x1024, .f32⟩
  | .local _ .vmem, ⟨1, _⟩ => ⟨S1x4096x1024, .f32⟩
  | .local _ .vmem, ⟨2, _⟩ => ⟨S1x1x1024, .i32⟩
  | .local _ .vmem, ⟨3, _⟩ => ⟨S1x1x1024, .i32⟩
  | .local _ .vmem, ⟨4, _⟩ => ⟨S1x1x1024, .f32⟩
  | .local _ .vmem, ⟨5, _⟩ => ⟨S1x1x1024, .f32⟩
  | _, _ => ⟨S32x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_c_0 : Ref sig .tc := ⟨.hbm, 3, rfl⟩
abbrev main_call0_v0 : Ref sig .tc := ⟨.hbm, 4, rfl⟩
abbrev main_call0_v1 : Ref sig .tc := ⟨.hbm, 5, rfl⟩
abbrev main_call0_v2 : Ref sig .tc := ⟨.hbm, 6, rfl⟩
abbrev main_call0_v3 : Ref sig .tc := ⟨.hbm, 7, rfl⟩
abbrev main_call0_v4 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![32], ![false]⟩

def k0_mult1 : BitVec 32 :=
  let c0_i32 : BitVec 32 := 0#32
  let c512_i32 : BitVec 32 := 512#32
  let v3 : BitVec 32 := Scalar.muli c0_i32 c512_i32
  v3
def k0_off1 (c0_i32 : BitVec 32) : Fin 3 → Nat :=
  let c0_2 : Index := 0#32
  let c512_i32 : BitVec 32 := 512#32
  let v3 : BitVec 32 := Scalar.muli c0_i32 c512_i32
  let v4 : BitVec 32 := v3
  let v5 : Index := Scalar.indexCast v4
  let c0_3 : Index := 0#32
  ![0, v5.toNat, 0]
def k0_mult2 : BitVec 32 :=
  let c1_i32 : BitVec 32 := 1#32
  let c512_i32_6 : BitVec 32 := 512#32
  let v17 : BitVec 32 := Scalar.muli c1_i32 c512_i32_6
  v17
def k0_mult3 : BitVec 32 :=
  let c2_i32 : BitVec 32 := 2#32
  let c512_i32_11 : BitVec 32 := 512#32
  let v31 : BitVec 32 := Scalar.muli c2_i32 c512_i32_11
  v31
def k0_mult4 : BitVec 32 :=
  let c3_i32 : BitVec 32 := 3#32
  let c512_i32_16 : BitVec 32 := 512#32
  let v45 : BitVec 32 := Scalar.muli c3_i32 c512_i32_16
  v45
def k0_mult5 : BitVec 32 :=
  let c4_i32 : BitVec 32 := 4#32
  let c512_i32_21 : BitVec 32 := 512#32
  let v59 : BitVec 32 := Scalar.muli c4_i32 c512_i32_21
  v59
def k0_mult6 : BitVec 32 :=
  let c5_i32 : BitVec 32 := 5#32
  let c512_i32_26 : BitVec 32 := 512#32
  let v73 : BitVec 32 := Scalar.muli c5_i32 c512_i32_26
  v73
def k0_mult7 : BitVec 32 :=
  let c6_i32 : BitVec 32 := 6#32
  let c512_i32_31 : BitVec 32 := 512#32
  let v87 : BitVec 32 := Scalar.muli c6_i32 c512_i32_31
  v87
def k0_mult8 : BitVec 32 :=
  let c7_i32 : BitVec 32 := 7#32
  let c512_i32_36 : BitVec 32 := 512#32
  let v101 : BitVec 32 := Scalar.muli c7_i32 c512_i32_36
  v101
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x4096x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x1024 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  bcast_S_S32x1024 : S_.BroadcastsInDim S32x1024 (![] : Fin 0 → Fin S32x1024.rank)
  bcast_S32x1024_S32x1x1024_0_2 : S32x1024.BroadcastsInDim S32x1x1024 (![0, 2] : Fin 2 → Fin S32x1x1024.rank)
  inb_S1x1x1024_S1x1x1024_0_0_0 : ∀ a, (![0, 0, 0] : Fin 3 → Nat) a + S1x1x1024.size a ≤ S1x1x1024.size a
  h_S1x1x1024 : 0 < S1x1x1024.numel
  shapeCasts_S1x1x1024_S1x1x1024 : S1x1x1024.ShapeCasts S1x1x1024
  h_S1x512x1024 : 0 < S1x512x1024.numel
  iota_S1x512x1024_d1_w32 : S1x512x1024.Iotas .tc 32 [1]
  broadcasts_S1x1x1024_S1x512x1024 : S1x1x1024.Broadcasts S1x512x1024
  reduces_S1x512x1024_S1x1024 : S1x512x1024.Reduces [1] S1x1024
  shapeCasts_S1x1024_S1x1x1024 : S1x1024.ShapeCasts S1x1x1024
  shapeCasts_S32x1x1024_S32x1024 : S32x1x1024.ShapeCasts S32x1024
  hrank0 : 0 < grid0.rank
  k0_mult1_dvd : 512 ∣ k0_mult1.toNat
  k0_off1_inb : ∀ (r : Fin 8), ∀ a, (k0_off1 (BitVec.ofNat 32 r.val)) a + S1x512x1024.size a ≤ S1x4096x1024.size a
  k0_mult2_dvd : 512 ∣ k0_mult2.toNat
  k0_mult3_dvd : 512 ∣ k0_mult3.toNat
  k0_mult4_dvd : 512 ∣ k0_mult4.toNat
  k0_mult5_dvd : 512 ∣ k0_mult5.toNat
  k0_mult6_dvd : 512 ∣ k0_mult6.toNat
  k0_mult7_dvd : 512 ∣ k0_mult7.toNat
  k0_mult8_dvd : 512 ∣ k0_mult8.toNat
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x4096x1024.size a ≤ S32x4096x1024.size a
  hwx0_0 : ∀ i : grid0.Coords, EltTy.bits .f32 = 32 ∨ (Rect.block (s := S32x4096x1024) S1x4096x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1x1024.size a ≤ S32x1x1024.size a
  hwx0_1 : ∀ i : grid0.Coords, EltTy.bits .i32 = 32 ∨ (Rect.block (s := S32x1x1024) S1x1x1024.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x1024.size a ≤ S32x1x1024.size a
  hwx0_2 : ∀ i : grid0.Coords, EltTy.bits .f32 = 32 ∨ (Rect.block (s := S32x1x1024) S1x1x1024.size (cc0_transform_2 i) (hinb0_2 i)).WholeWords (EltTy.packing .f32)

variable [Facts₀]

abbrev win0_0 : Pipeline.Window sig grid0 :=
  Pipeline.Window.ofSpec (Memref.whole main_arg0) S1x4096x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1x1x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x1x1024.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S32x4096x1024 : Shape := ⟨3, ![32, 4096, 1024]⟩
abbrev S32x1024 : Shape := ⟨2, ![32, 1024]⟩
abbrev S32x1x1024 : Shape := ⟨3, ![32, 1, 1024]⟩
abbrev S_ : Shape := ⟨0, ![]⟩
abbrev S32x1x1024x1 : Shape := ⟨4, ![32, 1, 1024, 1]⟩
abbrev S1 : Shape := ⟨1, ![1]⟩
abbrev S1x1x1x1 : Shape := ⟨4, ![1, 1, 1, 1]⟩

abbrev nBuf : Space → Nat
  | .hbm => 26
  | .vmem => 0
  | .smem => 0
  | _ => 0

abbrev bufTy : (tb : Table) → Fin (tcTables nBuf tb) → BufTy
  | .hbm, ⟨0, _⟩ => ⟨S32x4096x1024, .f32⟩
  | .hbm, ⟨1, _⟩ => ⟨S32x1024, .i32⟩
  | .hbm, ⟨2, _⟩ => ⟨S32x1x1024, .i32⟩
  | .hbm, ⟨3, _⟩ => ⟨S_, .i32⟩
  | .hbm, ⟨4, _⟩ => ⟨S32x1x1024, .i32⟩
  | .hbm, ⟨5, _⟩ => ⟨S32x1x1024, .i1⟩
  | .hbm, ⟨6, _⟩ => ⟨S_, .i32⟩
  | .hbm, ⟨7, _⟩ => ⟨S32x1x1024, .i32⟩
  | .hbm, ⟨8, _⟩ => ⟨S32x1x1024, .i32⟩
  | .hbm, ⟨9, _⟩ => ⟨S32x1x1024, .i32⟩
  | .hbm, ⟨10, _⟩ => ⟨S32x1x1024x1, .i32⟩
  | .hbm, ⟨11, _⟩ => ⟨S1, .i32⟩
  | .hbm, ⟨12, _⟩ => ⟨S_, .i32⟩
  | .hbm, ⟨13, _⟩ => ⟨S32x1x1024x1, .i32⟩
  | .hbm, ⟨14, _⟩ => ⟨S32x1x1024x1, .i1⟩
  | .hbm, ⟨15, _⟩ => ⟨S1x1x1x1, .i32⟩
  | .hbm, ⟨16, _⟩ => ⟨S32x1x1024x1, .i32⟩
  | .hbm, ⟨17, _⟩ => ⟨S32x1x1024x1, .i1⟩
  | .hbm, ⟨18, _⟩ => ⟨S32x1x1024x1, .i1⟩
  | .hbm, ⟨19, _⟩ => ⟨S_, .i1⟩
  | .hbm, ⟨20, _⟩ => ⟨S32x1x1024, .i1⟩
  | .hbm, ⟨21, _⟩ => ⟨S32x1x1024, .f32⟩
  | .hbm, ⟨22, _⟩ => ⟨S_, .f32⟩
  | .hbm, ⟨23, _⟩ => ⟨S32x1x1024, .f32⟩
  | .hbm, ⟨24, _⟩ => ⟨S32x1x1024, .f32⟩
  | .hbm, ⟨25, _⟩ => ⟨S32x1024, .f32⟩
  | _, _ => ⟨S32x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_call0_c : Ref sig .tc := ⟨.hbm, 3, rfl⟩
abbrev main_call0_v0 : Ref sig .tc := ⟨.hbm, 4, rfl⟩
abbrev main_call0_v1 : Ref sig .tc := ⟨.hbm, 5, rfl⟩
abbrev main_call0_c_0 : Ref sig .tc := ⟨.hbm, 6, rfl⟩
abbrev main_call0_v2 : Ref sig .tc := ⟨.hbm, 7, rfl⟩
abbrev main_call0_v3 : Ref sig .tc := ⟨.hbm, 8, rfl⟩
abbrev main_call0_v4 : Ref sig .tc := ⟨.hbm, 9, rfl⟩
abbrev main_call0_v5 : Ref sig .tc := ⟨.hbm, 10, rfl⟩
abbrev main_call0_c_1 : Ref sig .tc := ⟨.hbm, 11, rfl⟩
abbrev main_call0_c_2 : Ref sig .tc := ⟨.hbm, 12, rfl⟩
abbrev main_call0_v6 : Ref sig .tc := ⟨.hbm, 13, rfl⟩
abbrev main_call0_v7 : Ref sig .tc := ⟨.hbm, 14, rfl⟩
abbrev main_call0_v8 : Ref sig .tc := ⟨.hbm, 15, rfl⟩
abbrev main_call0_v9 : Ref sig .tc := ⟨.hbm, 16, rfl⟩
abbrev main_call0_v10 : Ref sig .tc := ⟨.hbm, 17, rfl⟩
abbrev main_call0_v11 : Ref sig .tc := ⟨.hbm, 18, rfl⟩
abbrev main_call0_c_3 : Ref sig .tc := ⟨.hbm, 19, rfl⟩
abbrev main_call0_v12 : Ref sig .tc := ⟨.hbm, 20, rfl⟩
abbrev main_call0_v13 : Ref sig .tc := ⟨.hbm, 21, rfl⟩
abbrev main_call0_cst : Ref sig .tc := ⟨.hbm, 22, rfl⟩
abbrev main_call0_v14 : Ref sig .tc := ⟨.hbm, 23, rfl⟩
abbrev main_v1 : Ref sig .tc := ⟨.hbm, 24, rfl⟩
abbrev main_v2 : Ref sig .tc := ⟨.hbm, 25, rfl⟩

abbrev nD : Nat := 1
abbrev τ : Topo := Topo.v7x

variable {F : FTy → Type} [FloatOps F]

class Facts₀ : Prop where
  bcast_S32x1024_S32x1x1024_0_2 : S32x1024.BroadcastsInDim S32x1x1024 (![0, 2] : Fin 2 → Fin S32x1x1024.rank)
  bcast_S_S32x1x1024 : S_.BroadcastsInDim S32x1x1024 (![] : Fin 0 → Fin S32x1x1024.rank)
  shapeCasts_S32x1x1024_S32x1x1024x1 : S32x1x1024.ShapeCasts S32x1x1024x1
  bcast_S_S32x1x1024x1 : S_.BroadcastsInDim S32x1x1024x1 (![] : Fin 0 → Fin S32x1x1024x1.rank)
  bcast_S1_S1x1x1x1_3 : S1.BroadcastsInDim S1x1x1x1 (![3] : Fin 1 → Fin S1x1x1x1.rank)
  bcast_S1x1x1x1_S32x1x1024x1_0_1_2_3 : S1x1x1x1.BroadcastsInDim S32x1x1024x1 (![0, 1, 2, 3] : Fin 4 → Fin S32x1x1024x1.rank)
  reducesTo_S32x1x1024x1_S32x1x1024_d3 : S32x1x1024x1.ReducesTo [3] S32x1x1024
  h_S_ : 0 < S_.numel
  shapeCasts_S32x1x1024_S32x1024 : S32x1x1024.ShapeCasts S32x1024
  gather_S32x4096x1024_S32x1x1024x1_S32x1x1024_n_1_02_02_1_3_111_wf : GatherDims.WF S32x4096x1024 S32x1x1024x1 S32x1x1024 [] [1] [0, 2] [1] [0, 2] 3 ![1, 1, 1]

variable [Facts₀]

def gather_S32x4096x1024_S32x1x1024x1_S32x1x1024_n_1_02_02_1_3_111 : GatherDims S32x4096x1024 S32x1x1024x1 S32x1x1024 where
  offsetDims := []
  collapsedSliceDims := [1]
  operandBatchingDims := [0, 2]
  startIndicesBatchingDims := [0, 2]
  startIndexMap := [1]
  indexVectorDim := 3
  sliceSizes := ![1, 1, 1]
  wf := gather_S32x4096x1024_S32x1x1024x1_S32x1x1024_n_1_02_02_1_3_111_wf

class Facts : Prop extends Facts₀ where

variable [Facts]
-- ==== Proof.Spec.lean ====
/-
  The gather both programs compute, as ONE function of the argument arrays.

  For a table x of shape [32, 4096, 1024] and row numbers idx of shape [32, 1024], the result at (b, e) is the entry
  of column e of batch b found in row idx[b, e]:  out[b, e] = x[b, idx[b, e], e].  Both programs agree with this
  function wherever every row number lies in [0, 4096); outside that range the reference wraps a negative number
  round and marks a too large one as not-a-number, while the kernel clamps, so the two differ there.
-/
import Idealize.ShloMosaic.PureOps.Ideal
import Idealize.ShloMosaic.Lib.ValueIdx

noncomputable section

namespace Cert.Spec

open Idealize.ShloMosaic Idealize.ShloMosaic.ValueIdx

/-- The table's shape, the row numbers' shape (also the result's). -/
abbrev STable : Shape := ⟨3, ![32, 4096, 1024]⟩
abbrev SRows : Shape := ⟨2, ![32, 1024]⟩

/-- Every row number, read as an unsigned word, is below 4096: as a signed word it lies in [0, 4096). -/
def InRange (idx : IVec SRows 32) : Prop := ∀ i : SRows.Idx, (idx i).toNat < 4096

/-- out[b, e] = x[b, idx[b, e], e]; the row is cut off at 4095 only so that the index is in range without a hypothesis
    (under `InRange` the cut does nothing). -/
def gathered (x : STable.Idx → EReal) (idx : IVec SRows 32) : SRows.Idx → EReal :=
  fun i => x (ix3 (i 0) (⟨min (idx i).toNat 4095, by omega⟩ : Fin 4096) (i 1))

/-- Under `InRange` the row read is the row number itself. -/
theorem gathered_apply (x : STable.Idx → EReal) (idx : IVec SRows 32) (h : InRange idx) (b : Fin 32) (e : Fin 1024) :
    gathered x idx (ix2 b e) = x (ix3 b (⟨(idx (ix2 b e)).toNat, h _⟩ : Fin 4096) e) := by
  unfold gathered
  congr 1
  have := h (ix2 b e)
  funext a
  match a with
  | ⟨0, _⟩ => rfl
  | ⟨1, _⟩ => exact Fin.ext (show min (idx (ix2 b e)).toNat 4095 = (idx (ix2 b e)).toNat from Nat.min_eq_left (by omega))
  | ⟨2, _⟩ => rfl

end Cert.Spec

end
-- ==== Proof.PreFacts.lean ====
/-
  What the precondition says of the row numbers.

  The precondition is the conjunction of "every table entry is finite" and "every row number w satisfies 0 ≤ w and
  w < 4096 as a signed word". A signed word in [0, 4096) has a clear top bit, so read unsigned it is the same number:
  every row number is below 4096. The finiteness half is not needed: the gather moves entries, it does no arithmetic
  on them that an infinity could spoil.
-/
import proofs.«427887_j38534446579794_3_alg».proof.Pre_finite_inputs
import proofs.«427887_j38534446579794_3_alg».proof.Proof.Gen.Pre_finite_inputs
import proofs.«427887_j38534446579794_3_alg».proof.Proof.Spec
import Idealize.ShloMosaic.Lib.ReduceAll
import Idealize.ShloMosaic.Lib.StableHlo.Predicate

noncomputable section

namespace Cert.PreFacts

open Idealize.ShloMosaic Idealize.ShloMosaic.ValueIdx Cert.Spec Cert.Pre_finite_inputs

instance : Subsingleton S_.Idx := ⟨fun a b => funext fun d => d.elim0⟩

/-- A signed word in [0, 4096) is below 4096 read unsigned. -/
theorem toNat_lt_of_signed (w : BitVec 32) (h0 : IntOp.cmpi .sge w 0#32 = 1#1) (h1 : IntOp.cmpi .slt w 4096#32 = 1#1) :
    w.toNat < 4096 := by
  rw [IntOp.cmpi_sge] at h0
  rw [IntOp.cmpi_slt] at h1
  have e0 : (0#32 : BitVec 32).toInt = 0 := by decide
  have e1 : (4096#32 : BitVec 32).toInt = 4096 := by decide
  rw [e0] at h0
  rw [e1] at h1
  have hlt := w.isLt
  unfold BitVec.toInt at h0 h1
  split at h1 <;> omega

/-- THE PRECONDITION, DECODED: every row number is in range. -/
theorem inRange_of_pre {F : FTy → Type} [FloatOps F] (x : FVec F S32x4096x1024 .f32) (idx : IVec S32x1024 32)
    (h : fn (F := F) x idx = fun _ => 1#1) : InRange idx := by
  intro i
  have e := congrFun h ix0
  dsimp only [fn] at e
  have e9 := (IntOp.andi_eq_one.mp e).2
  have hi := Host.reduce_andi_all _ _ _ _ _ e9 i
  obtain ⟨h0, h1⟩ := IntOp.andi_eq_one.mp hi
  refine toNat_lt_of_signed (idx i) ?_ ?_
  · rw [← h0]; rfl
  · rw [← h1]; rfl

end Cert.PreFacts

end
-- ==== Proof.KBody.lean ====
/-
  What one grid point of the kernel leaves in its output block, as a value.

  The body reads the staged block of the table (one batch: 4096 rows of 1024 columns) in eight chunks of 512 rows and
  the staged block of row numbers (one row of 1024 words), and stores the sum over the eight chunks of a masked
  column sum: chunk k contributes, in column e, the sum over its rows r of the entry at (512 k + r, e) where the
  row's number 512 k + r equals the word of column e, and zero elsewhere.
-/
import proofs.«427887_j38534446579794_3_alg».proof.Proof.Gen.KernelIdeal.Frame
import Idealize.ShloMosaic.Lib.Pipeline.Value

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.Sem

variable {F : FTy → Type} [FloatOps F]

/-- Chunk `k` of the staged table block: its rows 512 k … 512 k + 511, as the body's k-th load reads them. -/
abbrev chunk (x0 : Vec F S1x4096x1024 .f32) (k : Fin 8) : Vec F S1x512x1024 .f32 :=
  View.ld x0 (Rect.unit (s := S1x4096x1024) (k0_off1 (BitVec.ofNat 32 k.val)) S1x512x1024.size (Facts₀.k0_off1_inb k))

/-- The stored value: the body's arithmetic over the eight chunks and the row-number block. -/
def bodyVal (x0 : Vec F S1x4096x1024 .f32) (x1 : Vec F S1x1x1024 .i32) : FVec F S1x1x1024 .f32 :=
  k0_pay1 (k0_pay2 x1)
    (k0_pay6 (k0_pay2 x1) (k0_pay3 x1 (chunk x0 0) (chunk x0 1)) (chunk x0 2) k0_pay4 (k0_pay5 x1) (chunk x0 3) (chunk x0 4))
    (chunk x0 5) k0_pay7 (k0_pay8 (k0_pay2 x1)) (chunk x0 6) (chunk x0 7)

/-- The body's one store covers the output block, so the block ends at the stored value. -/
theorem out_eq (c : Dev nD) (i : grid0.Coords) (arg1 : Memref sig .tc .vmem S1x4096x1024 .f32) (harg1 : arg1.IsWhole)
    (arg2 : Memref sig .tc .vmem S1x1x1024 .i32) (harg2 : arg2.IsWhole) (arg3 : Memref sig .tc .vmem S1x1x1024 .f32) (harg3 : arg3.IsWhole)
    (x0 : Vec F S1x4096x1024 .f32) (x1 : Vec F S1x1x1024 .i32) :
    out0_A_2 c i arg1 harg1 arg2 harg2 arg3 harg3 x0 x1 = bodyVal x0 x1 := by
  have hz : (![0, 0, 0] : Fin S1x1x1024.rank → Nat) = fun _ => 0 := by
    funext a; match a with | ⟨0, _⟩ => rfl | ⟨1, _⟩ => rfl | ⟨2, _⟩ => rfl
  unfold out0_A_2
  rw [View.read_writes_eq_canon _ _ _ (cover0_A_2 c i arg1 harg1 arg2 harg2 arg3 harg3 x0 x1)]
  unfold kernelRun0_A
  dsimp only
  sl_unfold_words
  rw [View.canon_unit_zero hz]
  simp only [View.readAt_eq_ld, harg1.read_unread, harg2.read_unread, View.ld_unit_zero (S := S1x1x1024) hz]
  rfl

end Cert.KernelIdeal.Body

end
-- ==== Proof.KPay.lean ====
/-
  The stored value read at one column, over the extended reals.

  In column e the body's eight masked column sums each run over the 512 rows of one chunk; a row's entry is kept
  exactly when the row's number (its place in the chunk plus the chunk's first row) equals the word w of column e.
  When w, read as a number, is below 4096 exactly one row of exactly one chunk is kept, every other term is zero,
  and the sum of the eight sums on top of the zero start is the table's entry in row w.
-/
import proofs.«427887_j38534446579794_3_alg».proof.Proof.KBody
import Idealize.ShloMosaic.Lib.ValueIdx
import Idealize.ShloMosaic.Lib.Pipeline.Value
import Idealize.ShloMosaic.PureOps.Ideal.Laws
import Idealize.ShloMosaic.Lib.StableHlo.Predicate

set_option maxRecDepth 16384

noncomputable section

namespace Cert.KernelIdeal.Body

open Cert.KernelIdeal Cert.KernelIdeal.Gen
open Idealize.ShloMosaic Idealize.ShloMosaic.TcCoe Idealize.ShloMosaic.ValueIdx
open scoped BigOperators

variable {F : FTy → Type} [FloatOps F]

/-- One chunk's masked column sum: the rows of the chunk `v` whose number (place in the chunk plus the word `o`) equals
    the column's word in `v1` are kept, the others replaced by zero, and each column summed. -/
def chunkTerm (v1 : IVec S1x1x1024 32) (o : BitVec 32) (v : Vec F S1x512x1024 .f32) : FVec F S1x1x1024 .f32 :=
  shapeCast S1x1x1024
    (multiReduction .add [1] S1x1024
      (select (cmpi .eq (addi (iota .tc S1x512x1024 32 [1] Facts₀.iota_S1x512x1024_d1_w32) (broadcast S1x512x1024 o))
          (broadcastTo S1x512x1024 v1 Facts₀.broadcasts_S1x1x1024_S1x512x1024))
        v (broadcast S1x512x1024 (Scalar.ofBits .f32 0x00000000#32)))
      0x00000000#32 Facts₀.reduces_S1x512x1024_S1x1024 (.inl rfl) rfl)
    Facts₀.shapeCasts_S1x1024_S1x1x1024

/-- The stored value is the zero block plus the eight chunks' masked column sums, added in order. -/
theorem bodyVal_eq (x0 : Vec F S1x4096x1024 .f32) (x1 : Vec F S1x1x1024 .i32) :
    bodyVal x0 x1 =
      addf (addf (addf (addf (addf (addf (addf (addf (broadcast S1x1x1024 (Scalar.ofBits .f32 0x00000000#32))
        (chunkTerm (k0_pay2 x1) (Scalar.muli 0#32 512#32) (chunk x0 0)))
        (chunkTerm (k0_pay2 x1) (Scalar.muli 1#32 512#32) (chunk x0 1)))
        (chunkTerm (k0_pay2 x1) (Scalar.muli 2#32 512#32) (chunk x0 2)))
        (chunkTerm (k0_pay2 x1) (Scalar.muli 3#32 512#32) (chunk x0 3)))
        (chunkTerm (k0_pay2 x1) (Scalar.muli 4#32 512#32) (chunk x0 4)))
        (chunkTerm (k0_pay2 x1) (Scalar.muli 5#32 512#32) (chunk x0 5)))
        (chunkTerm (k0_pay2 x1) (Scalar.muli 6#32 512#32) (chunk x0 6)))
        (chunkTerm (k0_pay2 x1) (Scalar.muli 7#32 512#32) (chunk x0 7)) := rfl

/-- The row-number block passes through its shape cast unchanged. -/
theorem pay2_eq (x1 : Vec F S1x1x1024 .i32) : k0_pay2 x1 = x1 := by
  unfold k0_pay2
  exact shapeCast_self _ _

/-- A chunk's masked column sum at column `e`, as a sum over the chunk's rows. -/
theorem chunkTerm_apply (v1 : IVec S1x1x1024 32) (o : BitVec 32) (v : Vec Ideal S1x512x1024 .f32) (e : Fin 1024) :
    chunkTerm (F := Ideal) v1 o v (ix3 (0 : Fin 1) (0 : Fin 1) e)
      = ∑ r : Fin 512, if BitVec.ofNat 32 r.val + o = v1 (ix3 (0 : Fin 1) (0 : Fin 1) e)
          then v (ix3 (0 : Fin 1) r e) else 0 := by
  unfold chunkTerm
  rw [shapeCast_apply _ Facts₀.shapeCasts_S1x1024_S1x1x1024 (ix3 (0 : Fin 1) (0 : Fin 1) e) (ix2 (0 : Fin 1) e)
    (by rw [Shape.rowMajor_val_two, Shape.rowMajor_val_three]; rfl)]
  refine (Ideal.multiReduction_add_single (a := (1 : Fin S1x512x1024.rank)) _ 0x00000000#32 Facts₀.reduces_S1x512x1024_S1x1024 (.inl rfl) rfl
    (ix2 (0 : Fin 1) e)).trans ?_
  refine Finset.sum_congr rfl fun (r : Fin 512) _ => ?_
  have hl : Facts₀.reduces_S1x512x1024_S1x1024.lift (ix2 (0 : Fin 1) e) r = ix3 (0 : Fin 1) r e := by
    funext a; apply Fin.ext
    match a with
    | ⟨0, _⟩ => rfl
    | ⟨1, _⟩ => rfl
    | ⟨2, _⟩ => rfl
  rw [hl, select_apply]
  have hb : broadcastTo S1x512x1024 v1 Facts₀.broadcasts_S1x1x1024_S1x512x1024 (ix3 (0 : Fin 1) r e)
      = v1 (ix3 (0 : Fin 1) (0 : Fin 1) e) :=
    broadcastTo_apply v1 _ _ _ (fun a => by
      match a with
      | ⟨0, _⟩ => rfl
      | ⟨1, _⟩ => rfl
      | ⟨2, _⟩ => rfl)
  have hi : iota .tc S1x512x1024 32 [1] Facts₀.iota_S1x512x1024_d1_w32 (ix3 (0 : Fin 1) r e) = BitVec.ofNat 32 r.val :=
    iota_single_apply _ _ _ _ _ _
  have hc : cmpi .eq (addi (iota .tc S1x512x1024 32 [1] Facts₀.iota_S1x512x1024_d1_w32) (broadcast S1x512x1024 o))
        (broadcastTo S1x512x1024 v1 Facts₀.broadcasts_S1x1x1024_S1x512x1024) (ix3 (0 : Fin 1) r e)
      = IntOp.cmpi .eq (BitVec.ofNat 32 r.val + o) (v1 (ix3 (0 : Fin 1) (0 : Fin 1) e)) := by
    show IntOp.cmpi .eq (iota .tc S1x512x1024 32 [1] Facts₀.iota_S1x512x1024_d1_w32 (ix3 (0 : Fin 1) r e) + o)
      (broadcastTo S1x512x1024 v1 Facts₀.broadcasts_S1x1x1024_S1x512x1024 (ix3 (0 : Fin 1) r e)) = _
    rw [hi, hb]
  rw [hc]
  by_cases h : BitVec.ofNat 32 r.val + o = v1 (ix3 (0 : Fin 1) (0 : Fin 1) e)
  · rw [if_pos h, StableHlo.Predicate.cmpi_eq_iff.mpr h, select_one]
  · rw [if_neg h, eq_zero_of_ne_one (fun h1 => h (StableHlo.Predicate.cmpi_eq_iff.mp h1)), select_zero]
    show Ideal.ofBits .f32 0x00000000#32 = 0
    exact Ideal.ofBits_zero_f32

/-- The first row of chunk `k` is row 512 k of the staged block, the other offsets are zero. -/
theorem off_row (k : Fin 8) : k0_off1 (BitVec.ofNat 32 k.val) = ![0, 512 * k.val, 0] := by
  fin_cases k <;> rfl

/-- Row `r` of chunk `k` is row `512 k + r` of the staged block. -/
theorem chunk_apply (x0 : Vec F S1x4096x1024 .f32) (k : Fin 8) (r : Fin 512) (e : Fin 1024) :
    chunk x0 k (ix3 (0 : Fin 1) r e) = x0 (ix3 (0 : Fin 1) (⟨512 * k.val + r.val, by omega⟩ : Fin 4096) e) := by
  show x0 ((Rect.unit (s := S1x4096x1024) (k0_off1 (BitVec.ofNat 32 k.val)) S1x512x1024.size (Facts₀.k0_off1_inb k)).idx
    (ix3 (0 : Fin 1) r e)) = _
  congr 1
  funext a; apply Fin.ext
  show k0_off1 (BitVec.ofNat 32 k.val) a + 1 * ((ix3 (0 : Fin 1) r e) a).val = _
  rw [off_row k]
  match a with
  | ⟨0, _⟩ => rfl
  | ⟨1, _⟩ => show 512 * k.val + 1 * r.val = 512 * k.val + r.val; omega
  | ⟨2, _⟩ => show 0 + 1 * e.val = e.val; omega

/-- Chunk `k`'s masked column sum at column `e` whose word `w` is below 4096: the table's entry in row `w` when that
    row lies in chunk `k`, zero otherwise — row `512 k + r` is kept exactly when `512 k + r = w`. -/
theorem chunk_pick (v1 : IVec S1x1x1024 32) (o : BitVec 32) (k : Fin 8) (ho : o.toNat = 512 * k.val)
    (x0 : Vec Ideal S1x4096x1024 .f32) (e : Fin 1024) (hw : (v1 (ix3 (0 : Fin 1) (0 : Fin 1) e)).toNat < 4096) :
    chunkTerm (F := Ideal) v1 o (chunk x0 k) (ix3 (0 : Fin 1) (0 : Fin 1) e)
      = if (v1 (ix3 (0 : Fin 1) (0 : Fin 1) e)).toNat / 512 = k.val
          then x0 (ix3 (0 : Fin 1) (⟨(v1 (ix3 (0 : Fin 1) (0 : Fin 1) e)).toNat, hw⟩ : Fin 4096) e) else 0 := by
  rw [chunkTerm_apply]
  generalize v1 (ix3 (0 : Fin 1) (0 : Fin 1) e) = w at hw ⊢
  have hk : k.val < 8 := k.isLt
  have key : ∀ r : Fin 512, (BitVec.ofNat 32 r.val + o = w) ↔ (512 * k.val + r.val = w.toNat) := by
    intro r
    have hr : r.val < 512 := r.isLt
    constructor
    · intro h
      have h' := congrArg BitVec.toNat h
      rw [BitVec.toNat_add, BitVec.toNat_ofNat, ho] at h'
      simp only [Nat.reducePow] at h'
      omega
    · intro h
      apply BitVec.eq_of_toNat_eq
      rw [BitVec.toNat_add, BitVec.toNat_ofNat, ho]
      simp only [Nat.reducePow]
      omega
  by_cases hq : w.toNat / 512 = k.val
  · rw [if_pos hq]
    rw [Finset.sum_eq_single (⟨w.toNat % 512, Nat.mod_lt _ (by norm_num)⟩ : Fin 512)]
    · rw [if_pos ((key _).mpr (by show 512 * k.val + w.toNat % 512 = w.toNat; omega)), chunk_apply]
      congr 1
      funext a
      match a with
      | ⟨0, _⟩ => rfl
      | ⟨1, _⟩ => exact Fin.ext (by show 512 * k.val + w.toNat % 512 = w.toNat; omega)
      | ⟨2, _⟩ => rfl
    · intro r _ hr
      rw [if_neg]
      intro h
      apply hr
      apply Fin.ext
      have h' := (key r).mp h
      show r.val = w.toNat % 512
      omega
    · intro h; exact absurd (Finset.mem_univ _) h
  · rw [if_neg hq]
    apply Finset.sum_eq_zero
    intro r _
    have hr : r.val < 512 := r.isLt
    rw [if_neg]
    intro h
    have h' := (key r).mp h
    apply hq
    omega

/-- THE STORED VALUE AT COLUMN `e`: when the column's word `w` is below 4096, the table block's entry in row `w`. Exactly
    one of the eight chunks holds row `w`; the other seven sums and the start are zero. -/
theorem bodyVal_apply (x0 : Vec Ideal S1x4096x1024 .f32) (x1 : Vec Ideal S1x1x1024 .i32) (e : Fin 1024)
    (hw : (x1 (ix3 (0 : Fin 1) (0 : Fin 1) e)).toNat < 4096) :
    bodyVal x0 x1 (ix3 (0 : Fin 1) (0 : Fin 1) e)
      = x0 (ix3 (0 : Fin 1) (⟨(x1 (ix3 (0 : Fin 1) (0 : Fin 1) e)).toNat, hw⟩ : Fin 4096) e) := by
  rw [bodyVal_eq, pay2_eq]
  simp only [addf_apply, broadcast_apply]
  rw [chunk_pick x1 _ 0 rfl x0 e hw, chunk_pick x1 _ 1 rfl x0 e hw, chunk_pick x1 _ 2 rfl x0 e hw,
    chunk_pick x1 _ 3 rfl x0 e hw, chunk_pick x1 _ 4 rfl x0 e hw, chunk_pick x1 _ 5 rfl x0 e hw,
    chunk_pick x1 _ 6 rfl x0 e hw, chunk_pick x1 _ 7 rfl x0 e hw]
  rw [show (Scalar.ofBits .f32 0x00000000#32 : Ideal .f32) = (0 : EReal) from Ideal.ofBits_zero_f32]
  generalize x0 (ix3 (0 : Fin 1) (⟨(x1 (ix3 (0 : Fin 1) (0 : Fin 1) e)).toNat, hw⟩ : Fin 4096) e) = X
  have hq : (x1 (ix3 (0 : Fin 1) (0 : Fin 1) e)).toNat / 512 < 8 := by omega
  generalize (x1 (ix3 (0 : Fin 1) (0 : Fin 1) e)).toNat / 512 = q at hq
  interval_cases q <;> simp

end Cert.KernelIdeal.Body

end
-- ==== Proof.KIn.lean ====
/-
  What the kernel's windows hold when the region is entered.

  The table is staged as it was passed. The row numbers reach the kernel clamped into [0, 4095] and laid out as
  [32, 1, 1024]; a row number already in range passes the clamp unchanged. Grid point t works on batch t: its table
  block is batch t whole, its row-number block the 1024 words of batch t, its output block row t of the result.
-/
import proofs.«427887_j38534446579794_3_alg».proof.Proof.KPay
import proofs.«427887_j38534446579794_3_alg».proof.Proof.Spec
import Idealize.ShloMosaic.Lib.Pipeline.Value
import Idealize.ShloMosaic.Lib.StableHlo.Run
import Idealize.ShloMosaic.Lib.StableHlo.Predicate

set_option maxRecDepth 16384

noncomputable section

namespace Cert.KernelIdeal.Final

open Cert.KernelIdeal Cert.KernelIdeal.Gen Cert.KernelIdeal.Body
open Idealize.ShloMosaic Idealize.ShloMosaic.TcCoe Idealize.ShloMosaic.ValueIdx Idealize.ShloMosaic.StableHlo
open Idealize.SL.Sem Cert.Spec

variable {F : FTy → Type} [FloatOps F]
variable (m : (ℓ : Loc nD τ sig) → Buf (Elt F) ℓ)

/-- The row numbers as the kernel receives them: clamped into [0, 4095], then laid out [32, 1, 1024]. -/
def clampRows (idx : IVec S32x1024 32) : IVec S32x1x1024 32 :=
  broadcastInDim S32x1x1024 ![0, 2] Facts₀.bcast_S32x1024_S32x1x1024_0_2
    (minsi (broadcastInDim S32x1024 ![] Facts₀.bcast_S_S32x1024 (constantI S_ 32 4095#32))
      (maxsi (broadcastInDim S32x1024 ![] Facts₀.bcast_S_S32x1024 (constantI S_ 32 0#32)) idx))

/-- The host lines before the region leave exactly that in the second window's array. -/
theorem V_rows (c : Dev nD) :
    (V m c main_v1 : S32x1x1024.Idx → BitVec 32) = clampRows (m ((c : Thread nD τ).loc main_arg1)) := by
  dsimp only [V, V0]
  simp only [hostOps0, hostOps0_1, hostOps0_2, List.flatten_cons, List.flatten_nil, List.append_nil, List.cons_append,
    List.nil_append]
  after_results
  rfl

/-- The clamp leaves a word below 4096 alone. -/
theorem clamp_id (w : BitVec 32) (hw : w.toNat < 4096) : IntOp.minsi 4095#32 (IntOp.maxsi 0#32 w) = w := by
  have hi : w.toInt = (w.toNat : Int) := StableHlo.Predicate.toInt_eq_toNat_of_lt (by omega)
  have h1 : ¬(w.slt 0#32 = true) := by
    rw [BitVec.slt_iff_toInt_lt, hi, show (0#32 : BitVec 32).toInt = 0 from by decide]; omega
  have h2 : ¬((4095#32 : BitVec 32).slt w = true) := by
    rw [BitVec.slt_iff_toInt_lt, hi, show (4095#32 : BitVec 32).toInt = 4095 from by decide]; omega
  unfold IntOp.minsi IntOp.maxsi
  rw [if_neg h1, if_neg h2]

/-- So in range the kernel receives, at (b, 0, e), the row number of (b, e) itself. -/
theorem clampRows_apply (idx : IVec S32x1024 32) (h : InRange idx) (b : Fin 32) (e : Fin 1024) :
    clampRows idx (ix3 b (0 : Fin 1) e) = idx (ix2 b e) := by
  unfold clampRows
  rw [broadcastInDim_apply _ Facts₀.bcast_S32x1024_S32x1x1024_0_2 _ (ix3 b (0 : Fin 1) e) (ix2 b e) (fun a => by
    match a with
    | ⟨0, _⟩ => show b.val = if (32 : Nat) = 1 then 0 else b.val; rw [if_neg (by decide)]
    | ⟨1, _⟩ => show e.val = if (1024 : Nat) = 1 then 0 else e.val; rw [if_neg (by decide)])]
  exact clamp_id _ (h _)

end Cert.KernelIdeal.Final

end
-- ==== Proof.KFinal.lean ====
/-
  The kernel's result array after the run.

  Grid point t stores, in column e of its output block, the entry of batch t of the table in the row named by the
  word of (t, e) (the body's value, read at the point's blocks). The 32 output blocks are the 32 rows of the
  [32, 1, 1024] result, each written back once, so that array ends holding the gather; the one host line after the
  region only drops the unit axis.
-/
import proofs.«427887_j38534446579794_3_alg».proof.Proof.KIn

set_option maxRecDepth 16384

noncomputable section

namespace Cert.KernelIdeal.Final

open Cert.KernelIdeal Cert.KernelIdeal.Gen Cert.KernelIdeal.Body
open Idealize.ShloMosaic Idealize.ShloMosaic.TcCoe Idealize.ShloMosaic.ValueIdx Idealize.ShloMosaic.StableHlo
open Idealize.SL.Sem Cert.Spec
open Idealize.ShloMosaic.Pipeline (Dat)

variable (m : (ℓ : Loc nD τ sig) → Buf (Elt Ideal) ℓ) (ρ : Dev nD → PrngReg)

/-- A grid point is a batch. -/
def batchOf (t : Fin cfg0.N) : Fin 32 := ⟨t.val, lt_of_lt_of_eq t.isLt N_0⟩

/-- The printed index maps, decided over the grid: at point t every window's block index is (t, 0, 0). -/
theorem idx_facts : ∀ t : Fin cfg0.N,
    win0_0.index t (0 : Fin 3) = t.val ∧ win0_0.index t (1 : Fin 3) = 0 ∧ win0_0.index t (2 : Fin 3) = 0
    ∧ win0_1.index t (0 : Fin 3) = t.val ∧ win0_1.index t (1 : Fin 3) = 0 ∧ win0_1.index t (2 : Fin 3) = 0
    ∧ win0_2.index t (0 : Fin 3) = t.val ∧ win0_2.index t (1 : Fin 3) = 0 ∧ win0_2.index t (2 : Fin 3) = 0 :=
  (by decide +kernel : ∀ t : Fin grid0.N, _)

/-- The table block at point t is batch t of the table as passed. -/
theorem tbl_blk (c : Dev nD) (t : Fin cfg0.N) (s : Fin 4096) (e : Fin 1024) :
    iblk m c 0 t (ix3 (0 : Fin 1) s e) = m ((c : Thread nD τ).loc main_arg0) (ix3 (batchOf t) s e) := by
  show V m c main_arg0 (((cfg0.win 0).blk t).view.emb (ix3 (0 : Fin 1) s e)) = _
  rw [V_main_arg0]
  congr 1
  obtain ⟨e0, e1, e2, -⟩ := idx_facts t
  funext a
  apply Fin.ext
  match a with
  | ⟨0, _⟩ => show win0_0.index t (0 : Fin 3) * 1 + 1 * 0 = t.val; omega
  | ⟨1, _⟩ => show win0_0.index t (1 : Fin 3) * 4096 + 1 * s.val = s.val; omega
  | ⟨2, _⟩ => show win0_0.index t (2 : Fin 3) * 1024 + 1 * e.val = e.val; omega

/-- The row-number block at point t is batch t of the clamped row numbers. -/
theorem rows_blk (c : Dev nD) (t : Fin cfg0.N) (e : Fin 1024) :
    iblk m c 1 t (ix3 (0 : Fin 1) (0 : Fin 1) e)
      = clampRows (m ((c : Thread nD τ).loc main_arg1)) (ix3 (batchOf t) (0 : Fin 1) e) := by
  show V m c main_v1 (((cfg0.win 1).blk t).view.emb (ix3 (0 : Fin 1) (0 : Fin 1) e)) = _
  rw [V_rows]
  congr 1
  obtain ⟨-, -, -, e0, e1, e2, -⟩ := idx_facts t
  funext a
  apply Fin.ext
  match a with
  | ⟨0, _⟩ => show win0_1.index t (0 : Fin 3) * 1 + 1 * 0 = t.val; omega
  | ⟨1, _⟩ => show win0_1.index t (1 : Fin 3) * 1 + 1 * 0 = 0; omega
  | ⟨2, _⟩ => show win0_1.index t (2 : Fin 3) * 1024 + 1 * e.val = e.val; omega

/-- The gather laid out as the kernel's result array [32, 1, 1024]. -/
def gathered3 (x : STable.Idx → EReal) (idx : IVec SRows 32) : S32x1x1024.Idx → EReal :=
  fun j => gathered x idx (ix2 (j 0) (j 2))

/-- What point t stores in column e: the gather's entry (t, e). -/
theorem stored_at (c : Dev nD) (hin : InRange (m ((c : Thread nD τ).loc main_arg1))) (t : Fin cfg0.N) (e : Fin 1024) :
    bodyVal (iblk m c 0 t) (iblk m c 1 t) (ix3 (0 : Fin 1) (0 : Fin 1) e)
      = gathered (m ((c : Thread nD τ).loc main_arg0)) (m ((c : Thread nD τ).loc main_arg1)) (ix2 (batchOf t) e) := by
  have hr : iblk m c 1 t (ix3 (0 : Fin 1) (0 : Fin 1) e) = m ((c : Thread nD τ).loc main_arg1) (ix2 (batchOf t) e) :=
    (rows_blk m c t e).trans (clampRows_apply _ hin (batchOf t) e)
  have hw : (iblk m c 1 t (ix3 (0 : Fin 1) (0 : Fin 1) e)).toNat < 4096 := by rw [hr]; exact hin _
  refine (bodyVal_apply (iblk m c 0 t) (iblk m c 1 t) e hw).trans ?_
  refine (tbl_blk m c t _ e).trans ?_
  rw [gathered_apply _ _ hin]
  congr 1
  funext a
  match a with
  | ⟨0, _⟩ => rfl
  | ⟨1, _⟩ => exact Fin.ext (congrArg BitVec.toNat hr)
  | ⟨2, _⟩ => rfl

/-- WHAT POINT t WRITES BACK is block t of the gather. -/
theorem flushed_eq (c : Dev nD) (hin : InRange (m ((c : Thread nD τ).loc main_arg1))) (t : Fin cfg0.N) :
    (dats m 0 c).flushed 2 t = ((cfg0.win 2).blk t).view.read (Elt Ideal)
      (gathered3 (m ((c : Thread nD τ).loc main_arg0)) (m ((c : Thread nD τ).loc main_arg1))) := by
  show (cfg0.win 2).cut (grid0.coords t) ((dats m 0 c).after 2 t) = _
  rw [after0_2]
  unfold outsAt0
  rw [out_eq]
  funext j
  have h0 : (j 0).val < 1 := (j 0).isLt
  have h1 : (j 1).val < 1 := (j 1).isLt
  have h2 : (j 2).val < 1024 := (j 2).isLt
  have hj : j = ix3 (0 : Fin 1) (0 : Fin 1) (⟨(j 2).val, h2⟩ : Fin 1024) := by
    funext a
    match a with
    | ⟨0, _⟩ => exact Fin.ext (by show (j 0).val = 0; omega)
    | ⟨1, _⟩ => exact Fin.ext (by show (j 1).val = 0; omega)
    | ⟨2, _⟩ => rfl
  rw [hj]
  refine (stored_at m c hin t _).trans ?_
  show _ = gathered3 _ _ (((cfg0.win 2).blk t).view.emb (ix3 (0 : Fin 1) (0 : Fin 1) (⟨(j 2).val, h2⟩ : Fin 1024)))
  unfold gathered3
  congr 1
  obtain ⟨-, -, -, -, -, -, e0, e1, e2⟩ := idx_facts t
  funext a
  match a with
  | ⟨0, _⟩ => exact Fin.ext (by show t.val = win0_2.index t (0 : Fin 3) * 1 + 1 * 0; omega)
  | ⟨1, _⟩ => exact Fin.ext (by show (j 2).val = win0_2.index t (2 : Fin 3) * 1024 + 1 * (j 2).val; omega)

/-- An index of the result array is in point t's block iff each coordinate is in the block's range on its axis. -/
theorem mem_blk (t : Fin cfg0.N) (i : S32x1x1024.Idx) :
    i ∈ ((cfg0.win 2).blk t).view.set ↔ ∀ a : Fin 3, win0_2.index t a * S1x1x1024.size a ≤ (i a).val
      ∧ (i a).val < win0_2.index t a * S1x1x1024.size a + S1x1x1024.size a := by
  show i ∈ ((View.whole main_v2).slice (win0_2.rect t)).set ↔ _
  rw [View.set_slice_whole, Rect.mem_set_unit]
  exact Iff.rfl

/-- THE RESULT ARRAY after the region: the gather. Row b of it is point b's block. -/
theorem final (c : Dev nD) (hin : InRange (m ((c : Thread nD τ).loc main_arg1))) :
    (dats m 0 c).arrAt 2 cfg0.N
      = gathered3 (m ((c : Thread nD τ).loc main_arg0)) (m ((c : Thread nD τ).loc main_arg1)) :=
  (dats m 0 c).arrAt_eq_of_cover 2 _ (fun t _ => flushed_eq m c hin t) fun i => by
    have hi0 : (i 0).val < 32 := (i 0).isLt
    have hi1 : (i 1).val < 1 := (i 1).isLt
    have hi2 : (i 2).val < 1024 := (i 2).isLt
    refine ⟨⟨(i 0).val, lt_of_lt_of_eq hi0 N_0.symm⟩, flush0_2 _, ?_⟩
    rw [mem_blk]
    obtain ⟨-, -, -, -, -, -, e0, e1, e2⟩ := idx_facts ⟨(i 0).val, lt_of_lt_of_eq hi0 N_0.symm⟩
    intro a
    match a with
    | ⟨0, _⟩ =>
      show win0_2.index _ (0 : Fin 3) * 1 ≤ (i 0).val ∧ (i 0).val < win0_2.index _ (0 : Fin 3) * 1 + 1
      rw [e0]; show (i 0).val * 1 ≤ (i 0).val ∧ (i 0).val < (i 0).val * 1 + 1; omega
    | ⟨1, _⟩ =>
      show win0_2.index _ (1 : Fin 3) * 1 ≤ (i 1).val ∧ (i 1).val < win0_2.index _ (1 : Fin 3) * 1 + 1
      rw [e1]; omega
    | ⟨2, _⟩ =>
      show win0_2.index _ (2 : Fin 3) * 1024 ≤ (i 2).val ∧ (i 2).val < win0_2.index _ (2 : Fin 3) * 1024 + 1024
      rw [e2]; omega

end Cert.KernelIdeal.Final

end
-- ==== Proof.KRun.lean ====
/-
  The idealized kernel's run, read as a value.

  After the region the result array [32, 1, 1024] holds the gather; the one host line left reshapes it to
  [32, 1024], which moves no entry: entry (b, e) of the result is entry (b, 0, e) of the array. The arguments are
  left as passed.
-/
import proofs.«427887_j38534446579794_3_alg».proof.Proof.KFinal
import Idealize.ShloMosaic.Lib.Pipeline.FrameSuffix

set_option maxRecDepth 16384

noncomputable section

namespace Cert.KernelIdeal.Final

open Cert.KernelIdeal Cert.KernelIdeal.Gen Cert.KernelIdeal.Body
open Idealize.ShloMosaic Idealize.ShloMosaic.TcCoe Idealize.ShloMosaic.ValueIdx Idealize.ShloMosaic.StableHlo
open Idealize.SL.Sem Cert.Spec
open Idealize.ShloMosaic.Pipeline (Dat)

variable (m : (ℓ : Loc nD τ sig) → Buf (Elt Ideal) ℓ) (ρ : Dev nD → PrngReg)

/-- The reshape [32, 1, 1024] → [32, 1024] reads (b, 0, e) at (b, e). -/
theorem dropUnit_apply (y : S32x1x1024.Idx → EReal) (b : Fin 32) (e : Fin 1024) :
    shapeCast S32x1024 y Facts₀.shapeCasts_S32x1x1024_S32x1024 (ix2 b e) = y (ix3 b (0 : Fin 1) e) :=
  shapeCast_apply y _ (ix2 b e) (ix3 b (0 : Fin 1) e) (by
    rw [Shape.rowMajor_val_three, Shape.rowMajor_val_two]
    show (b.val * 1 + 0) * 1024 + e.val = b.val * 1024 + e.val
    omega)

/-- THE RESULT after the host line that follows the region: the gather. -/
theorem tail_eq (c : Dev nD) (hin : InRange (m ((c : Thread nD τ).loc main_arg1))) :
    Pipeline.afterTail₀ cfgs (dats m) 0 (V0 m) [hostOps1] c main_v3
      = gathered (m ((c : Thread nD τ).loc main_arg0)) (m ((c : Thread nD τ).loc main_arg1)) := by
  have hA : Pipeline.withArrays spec0 c (V0 m c) (fun w => (dats m 0 c).arrAt w cfg0.N) (Proc.devRef .tc main_v2)
      = gathered3 (m ((c : Thread nD τ).loc main_arg0)) (m ((c : Thread nD τ).loc main_arg1)) :=
    (Pipeline.withArrays_arr spec0 launch0.win.arr_inj c _ _ 2).trans (final m c hin)
  unfold Pipeline.afterTail₀
  show StableHlo.after hostOps1 _ (Proc.devRef .tc main_v3) = _
  after_results
  funext i
  obtain ⟨b, e, rfl⟩ : ∃ (b : Fin 32) (e : Fin 1024), i = ix2 b e := ⟨i 0, i 1, eq_ix2 i⟩
  refine (dropUnit_apply _ b e).trans ?_
  exact congrFun hA (ix3 b (0 : Fin 1) e)

/-- THE RUN: every weakly fair execution of the idealized kernel ends with the gather in its result and the
    arguments as passed, when every row number is in range. -/
theorem run (hin : ∀ c : Dev nD, InRange (m ((c : Thread nD τ).loc main_arg1))) :
    θ_run defs (onTc (τ := τ) (main (F := Ideal))) ⟨m, fun _ => 0, ρ⟩ fun r => ∀ c : Dev nD,
      r.2.mem ((c.tc : Thread nD τ).loc main_v3)
        = gathered (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
    ⟨((h c).2 main_v3 (Pipeline.mem_restRefs_of main_v3 (by decide) (by decide))).trans (tail_eq m c (hin c)),
     ((h c).1 0).trans (((dats m 0 c).arrAt_in 0 rfl _).trans ((A_eq m c 0).trans (V_main_arg0 m c))),
     ((h c).2 main_arg1 (Pipeline.mem_restRefs_of main_arg1 (by decide) (by decide))).trans (W_main_arg1 m (dats m) c)⟩)
    (run_main m ρ)

end Cert.KernelIdeal.Final

end
-- ==== Proof.RefSide.lean ====
/-
  The reference, read at one result entry.

  jnp.take_along_axis first wraps a negative row number round by adding 4096, then gathers with a start index
  clamped into [0, 4095], and finally replaces the entry by not-a-number where the (wrapped) row number was outside
  [0, 4095]. When every row number w is in [0, 4096) none of the three does anything: w is not negative, so it is not
  wrapped; it is within the clamp's bounds; and the in-range test holds, so the gathered entry is kept. What is left
  is the entry of the table in batch b, row w, column e.
-/
import proofs.«427887_j38534446579794_3_alg».proof.Proof.RefRead
import proofs.«427887_j38534446579794_3_alg».proof.Proof.Spec
import Idealize.ShloMosaic.Lib.ValueIdx
import Idealize.ShloMosaic.Lib.StableHlo.Predicate
import Idealize.ShloMosaic.Lib.Affine
import Idealize.ShloMosaic.PureOps.Reduce

set_option maxRecDepth 16384

noncomputable section

namespace Cert.ReferenceIdeal.RefSide

open Cert.ReferenceIdeal Cert.ReferenceIdeal.Gen Cert.ReferenceIdeal.PRead
open Idealize.ShloMosaic Idealize.ShloMosaic.ValueIdx Cert.Spec

/-- A row number in range reads the same signed and unsigned. -/
theorem toInt_of_lt (w : BitVec 32) (hw : w.toNat < 4096) : w.toInt = (w.toNat : Int) :=
  StableHlo.Predicate.toInt_eq_toNat_of_lt (by omega)

/-- A left fold by `and` from 1 over words that are all 1 is 1. -/
theorem foldl_andi_one {ι : Type} (f : ι → BitVec 1) :
    ∀ l : List ι, (∀ n ∈ l, f n = 1#1) → l.foldl (fun r n => IntOp.andi r (f n)) 1#1 = 1#1
  | [], _ => rfl
  | a :: l, h => by
    rw [List.foldl_cons, h a List.mem_cons_self]
    exact foldl_andi_one f l fun n hn => h n (List.mem_cons_of_mem _ hn)

variable (x0 : STable.Idx → EReal) (x1 : IVec SRows 32)

/-- The wrap of negative row numbers leaves a row number in range alone. -/
theorem wrapped_apply (h : InRange x1) (j : S32x1x1024.Idx) :
    val_main_call0_v4 (F := Ideal) x1 j = x1 (idx_main_v0 j) := by
  rw [val_main_call0_v4_apply, val_main_call0_v1_apply, val_main_v0_apply, val_main_call0_v0_apply,
    val_main_call0_c_apply]
  have hw := h (idx_main_v0 j)
  have hn : IntOp.cmpi .slt (x1 (idx_main_v0 j)) 0#32 = 0#1 := by
    refine eq_zero_of_ne_one fun h1 => ?_
    have h2 := IntOp.cmpi_slt.mp h1
    rw [toInt_of_lt _ hw, show (0#32 : BitVec 32).toInt = 0 from by decide] at h2
    omega
  rw [hn, select_zero]

/-- The start indices [32, 1, 1024, 1] are the wrapped row numbers, one per (batch, column). -/
theorem starts_apply (h : InRange x1) (b : Fin 32) (e : Fin 1024) (i : S32x1x1024x1.Idx)
    (hi0 : (i 0).val = b.val) (hi2 : (i 2).val = e.val) :
    val_main_call0_v5 (F := Ideal) x1 i = x1 (ix2 b e) := by
  rw [val_main_call0_v5_apply, wrapped_apply x1 h]
  congr 1
  have h1 : (i 1).val < 1 := (i 1).isLt
  have h3 : (i 3).val < 1 := (i 3).isLt
  have hb : b.val < 32 := b.isLt
  have he : e.val < 1024 := e.isLt
  funext a
  match a with
  | ⟨0, _⟩ =>
    apply Fin.ext
    show ((((i 0).val * 1 + (i 1).val) * 1024 + (i 2).val) * 1 + (i 3).val) / 1024 = b.val
    omega
  | ⟨1, _⟩ =>
    apply Fin.ext
    show ((((i 0).val * 1 + (i 1).val) * 1024 + (i 2).val) * 1 + (i 3).val) % 1024 = e.val
    omega

/-- The in-range test holds everywhere. -/
theorem inb_apply (h : InRange x1) (j : S32x1x1024.Idx) : val_main_call0_v12 (F := Ideal) x1 j = 1#1 := by
  unfold val_main_call0_v12
  rw [Host.reduce_eq_foldl]
  show List.foldl (fun r i => IntOp.andi r (val_main_call0_v11 (F := Ideal) x1 i)) 1#1 _ = 1#1
  refine foldl_andi_one _ _ fun i _ => ?_
  rw [val_main_call0_v11_apply, val_main_call0_v7_apply, val_main_call0_v10_apply, val_main_call0_v6_apply,
    val_main_call0_c_2_apply, val_main_call0_v9_apply, val_main_call0_v8_apply, val_main_call0_c_1_apply,
    starts_apply x1 h ⟨(i 0).val, (i 0).isLt⟩ ⟨(i 2).val, (i 2).isLt⟩ i rfl rfl]
  have hw := h (ix2 ⟨(i 0).val, (i 0).isLt⟩ ⟨(i 2).val, (i 2).isLt⟩)
  refine IntOp.andi_eq_one.mpr ⟨IntOp.cmpi_sge.mpr ?_, IntOp.cmpi_sle.mpr ?_⟩
  · rw [toInt_of_lt _ hw, show (0#32 : BitVec 32).toInt = 0 from by decide]; omega
  · rw [toInt_of_lt _ hw, show (4095#32 : BitVec 32).toInt = 4095 from by decide]; omega

/-- The gather's record, named. -/
abbrev gd : GatherDims S32x4096x1024 S32x1x1024x1 S32x1x1024 :=
  gather_S32x4096x1024_S32x1x1024x1_S32x1x1024_n_1_02_02_1_3_111

/-- The start-index entry result index (b, 0, e) reads: (b, 0, e, 0). -/
theorem siIdx_eq (b : Fin 32) (e : Fin 1024) (k : Fin gd.startIndexMap.length) :
    gd.siIdx (ix3 b (0 : Fin 1) e) k = ix4 b (0 : Fin 1) e (0 : Fin 1) := by
  have hk : k.val = 0 := by have := k.isLt; have hl : gd.startIndexMap.length = 1 := rfl; omega
  funext a
  apply Fin.ext
  match a with
  | ⟨0, _⟩ => rfl
  | ⟨1, _⟩ => rfl
  | ⟨2, _⟩ => rfl
  | ⟨3, _⟩ => exact hk

/-- THE GATHER READ AT (b, 0, e): batch b and column e come from the result index (the two batching axes), the
    row is the start index read signed and clamped into [0, 4095]. -/
theorem gather_apply (idx : IVec S32x1x1024x1 32) (b : Fin 32) (e : Fin 1024) :
    Host.gather gd x0 idx (ix3 b (0 : Fin 1) e)
      = x0 (ix3 b (⟨min (idx (ix4 b (0 : Fin 1) e (0 : Fin 1))).toInt.toNat 4095, by omega⟩ : Fin 4096) e) := by
  have c0 : gd.start (ix3 b (0 : Fin 1) e) idx (0 : Fin 3) + gd.batchCoord (ix3 b (0 : Fin 1) e) (0 : Fin 3)
      + gd.offCoord (ix3 b (0 : Fin 1) e) (0 : Fin 3) = b.val := by
    rw [gd.start_batching _ _ _ (by decide), gd.offCoord_eq_zero _ _ (fun h => ((gd.mem_sKept _).mp h).2 (by decide))]
    have hb : gd.batchCoord (ix3 b (0 : Fin 1) e) (0 : Fin 3) = b.val := rfl
    omega
  have c1 : gd.start (ix3 b (0 : Fin 1) e) idx (1 : Fin 3) + gd.batchCoord (ix3 b (0 : Fin 1) e) (1 : Fin 3)
      + gd.offCoord (ix3 b (0 : Fin 1) e) (1 : Fin 3) = min (idx (ix4 b (0 : Fin 1) e (0 : Fin 1))).toInt.toNat 4095 := by
    rw [gd.batchCoord_eq_zero _ _ (by decide), gd.offCoord_eq_zero _ _ (fun h => ((gd.mem_sKept _).mp h).1 (by decide))]
    unfold GatherDims.start
    rw [dif_pos (show (1 : Fin 3) ∈ gd.startIndexMap from by decide), siIdx_eq]
    rfl
  have c2 : gd.start (ix3 b (0 : Fin 1) e) idx (2 : Fin 3) + gd.batchCoord (ix3 b (0 : Fin 1) e) (2 : Fin 3)
      + gd.offCoord (ix3 b (0 : Fin 1) e) (2 : Fin 3) = e.val := by
    rw [gd.start_batching _ _ _ (by decide), gd.offCoord_eq_zero _ _ (fun h => ((gd.mem_sKept _).mp h).2 (by decide))]
    have he : gd.batchCoord (ix3 b (0 : Fin 1) e) (2 : Fin 3) = e.val := rfl
    omega
  unfold Host.gather
  congr 1
  funext a
  refine Fin.ext ?_
  match a with
  | ⟨0, _⟩ => exact c0
  | ⟨1, _⟩ => exact c1
  | ⟨2, _⟩ => exact c2

/-- THE REFERENCE IS THE GATHER: with every row number in range its result is out[b, e] = x[b, idx[b, e], e]. -/
theorem ref_eq (h : InRange x1) : val_main_v2 (F := Ideal) x0 x1 = gathered x0 x1 := by
  funext i
  obtain ⟨b, e, rfl⟩ : ∃ (b : Fin 32) (e : Fin 1024), i = ix2 b e := ⟨i 0, i 1, eq_ix2 i⟩
  have hidx : idx_main_v2 (ix2 b e) = ix3 b (0 : Fin 1) e := by
    have hb : b.val < 32 := b.isLt
    have he : e.val < 1024 := e.isLt
    funext a
    match a with
    | ⟨0, _⟩ => exact Fin.ext (by show (b.val * 1024 + e.val) / 1024 = b.val; omega)
    | ⟨1, _⟩ => rfl
    | ⟨2, _⟩ => exact Fin.ext (by show (b.val * 1024 + e.val) % 1024 = e.val; omega)
  rw [val_main_v2_apply, hidx, val_main_v1_apply, inb_apply x1 h, select_one]
  unfold val_main_call0_v13
  rw [gather_apply]
  unfold gathered
  congr 1
  have hw := h (ix2 b e)
  funext a
  match a with
  | ⟨0, _⟩ => rfl
  | ⟨1, _⟩ =>
    apply Fin.ext
    show min (val_main_call0_v5 (F := Ideal) x1 (ix4 b (0 : Fin 1) e (0 : Fin 1))).toInt.toNat 4095
      = min (x1 (ix2 b e)).toNat 4095
    rw [starts_apply x1 h b e (ix4 b (0 : Fin 1) e (0 : Fin 1)) rfl rfl, toInt_of_lt _ hw, Int.toNat_natCast]
  | ⟨2, _⟩ => rfl

end Cert.ReferenceIdeal.RefSide

end
-- ==== Proof.lean ====
/-
  The certificate of a gather along the sequence axis: out[b, e] = x[b, idx[b, e], e] for a table x of shape
  [32, 4096, 1024] and row numbers idx of shape [32, 1024].

  The kernel clamps the row numbers into [0, 4095], streams each batch's 4096 rows through the core in eight chunks
  of 512 rows, and in each column keeps, by an equality mask against the row's number, the one entry whose row is
  the column's row number; the masked column sums of the eight chunks are added. The reference is
  jnp.take_along_axis: negative row numbers wrapped round, a clamped gather, not-a-number where the row number was
  out of range. With every row number in [0, 4096) — the stated domain — both are the gather itself: the kernel's
  sums each have at most one nonzero term (adding zeros changes no extended real, finite or not), and none of the
  reference's three guards acts. Outside that domain the programs differ (the reference wraps −1 to row 4095, the
  kernel clamps it to row 0), which is why the domain is stated.

  The frames of the two kernel programs are the generated frame proofs; the reference's frame is its run with the
  result dropped; the idealization rewrote nothing, so `preserves` is trivial.
-/
import proofs.«427887_j38534446579794_3_alg».proof.Defs
import proofs.«427887_j38534446579794_3_alg».proof.Proof.Gen.Kernel
import proofs.«427887_j38534446579794_3_alg».proof.Proof.Gen.Kernel.Frame
import proofs.«427887_j38534446579794_3_alg».proof.Proof.Gen.KernelIdeal
import proofs.«427887_j38534446579794_3_alg».proof.Proof.Gen.KernelIdeal.Frame
import proofs.«427887_j38534446579794_3_alg».proof.Proof.Gen.ReferenceIdeal
import proofs.«427887_j38534446579794_3_alg».proof.Proof.Gen.Pre_finite_inputs
import proofs.«427887_j38534446579794_3_alg».proof.Proof.PreFacts
import proofs.«427887_j38534446579794_3_alg».proof.Proof.KRun
import proofs.«427887_j38534446579794_3_alg».proof.Proof.RefSide

noncomputable section

namespace Cert.Proof

open Idealize.ShloMosaic Idealize.ShloMosaic.TcCoe Idealize.SL.Sem Cert.Spec

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.PValue.run (F := Ideal) m ρ)

theorem preserves : Cert.preserves_Kernel_KernelIdeal := trivial

/-- Both idealized programs end with the gather of the (agreeing) arguments in their result. -/
theorem algebraic : Cert.algebraic_KernelIdeal_ReferenceIdeal := by
  intro m ρ m' ρ' hpre hagree
  have hin : ∀ c : Dev Cert.KernelIdeal.nD,
      InRange (m ((c : Thread Cert.KernelIdeal.nD Cert.KernelIdeal.τ).loc Cert.KernelIdeal.main_arg1)) :=
    fun c => Cert.PreFacts.inRange_of_pre _ _ (hpre c)
  refine ⟨fun c => gathered (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    Cert.KernelIdeal.Final.run m ρ hin, ?_⟩
  refine (θ_run Cert.ReferenceIdeal.defs _ _).mono (fun _ h c => ⟨(h c).1.trans ?_, (h c).2⟩)
    (Cert.ReferenceIdeal.PValue.run (F := Ideal) m' ρ')
  rw [Cert.ReferenceIdeal.PRead.val_main_v2_eq, (hagree c).1, (hagree c).2]
  exact Cert.ReferenceIdeal.RefSide.ref_eq _ _ (hin c)

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
